-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x64x96x320 : Shape := ⟨4, ![2, 64, 96, 320]⟩
abbrev S_ : Shape := ⟨0, ![]⟩

class Facts : Prop where
  bcast_S_S2x64x96x320 : S_.BroadcastsInDim S2x64x96x320 (![] : Fin 0 → Fin S2x64x96x320.rank)
  reducesTo_S2x64x96x320_S_d0_1_2_3 : S2x64x96x320.ReducesTo [0, 1, 2, 3] S_
  h_S_ : 0 < S_.numel

variable [Facts]

def fn {F : FTy → Type} [FloatOps F] (main_arg0 : FVec F S2x64x96x320 .f32) (main_arg1 : FVec F S2x64x96x320 .f32) : IVec S_ 1 :=
  let main_v0 : FVec F S2x64x96x320 .f32 := Host.absf main_arg0
  let main_cst : FVec F S_ .f32 := constant S_ .f32 0x7F800000#32
  let main_v1 : FVec F S2x64x96x320 .f32 := broadcastInDim S2x64x96x320 ![] bcast_S_S2x64x96x320 main_cst
  let main_v2 : IVec S2x64x96x320 1 := cmpf .olt main_v0 main_v1
  let main_c : IVec S_ 1 := constantI S_ 1 1#1
  let main_v3 : IVec S_ 1 := (fun x v => Host.reduce IntOp.andi x v reducesTo_S2x64x96x320_S_d0_1_2_3 h_S_) main_v2 main_c
  let main_v4 : FVec F S2x64x96x320 .f32 := Host.absf main_arg1
  let main_cst_0 : FVec F S_ .f32 := constant S_ .f32 0x7F800000#32
  let main_v5 : FVec F S2x64x96x320 .f32 := broadcastInDim S2x64x96x320 ![] bcast_S_S2x64x96x320 main_cst_0
  let main_v6 : IVec S2x64x96x320 1 := cmpf .olt main_v4 main_v5
  let main_c_1 : IVec S_ 1 := constantI S_ 1 1#1
  let main_v7 : IVec S_ 1 := (fun x v => Host.reduce IntOp.andi x v reducesTo_S2x64x96x320_S_d0_1_2_3 h_S_) main_v6 main_c_1
  let main_v8 : IVec S_ 1 := andi main_v3 main_v7
  main_v8
-- ==== Kernel.lean ====
abbrev S2x64x96x320 : Shape := ⟨4, ![2, 64, 96, 320]⟩
abbrev S2x8x8x96x320 : Shape := ⟨5, ![2, 8, 8, 96, 320]⟩
abbrev S2x8x49x96x320 : Shape := ⟨5, ![2, 8, 49, 96, 320]⟩
abbrev S1x1x8x96x320 : Shape := ⟨5, ![1, 1, 8, 96, 320]⟩
abbrev S1x1x49x96x320 : Shape := ⟨5, ![1, 1, 49, 96, 320]⟩
abbrev S8x96x320 : Shape := ⟨3, ![8, 96, 320]⟩
abbrev S8x96x384 : Shape := ⟨3, ![8, 96, 384]⟩
abbrev S96x320 : Shape := ⟨2, ![96, 320]⟩
abbrev S1x96x320 : Shape := ⟨3, ![1, 96, 320]⟩
abbrev S8x96x64 : Shape := ⟨3, ![8, 96, 64]⟩
abbrev S1x1x1x96x320 : Shape := ⟨5, ![1, 1, 1, 96, 320]⟩

abbrev nBuf : Space → Nat
  | .hbm => 5
  | .vmem => 8
  | .smem => 0
  | _ => 0

abbrev bufTy : (tb : Table) → Fin (tcTables nBuf tb) → BufTy
  | .hbm, ⟨0, _⟩ => ⟨S2x64x96x320, .f32⟩
  | .hbm, ⟨1, _⟩ => ⟨S2x64x96x320, .f32⟩
  | .hbm, ⟨2, _⟩ => ⟨S2x8x8x96x320, .f32⟩
  | .hbm, ⟨3, _⟩ => ⟨S2x8x8x96x320, .f32⟩
  | .hbm, ⟨4, _⟩ => ⟨S2x8x49x96x320, .f32⟩
  | .local _ .vmem, ⟨0, _⟩ => ⟨S1x1x8x96x320, .f32⟩
  | .local _ .vmem, ⟨1, _⟩ => ⟨S1x1x8x96x320, .f32⟩
  | .local _ .vmem, ⟨2, _⟩ => ⟨S1x1x8x96x320, .f32⟩
  | .local _ .vmem, ⟨3, _⟩ => ⟨S1x1x8x96x320, .f32⟩
  | .local _ .vmem, ⟨4, _⟩ => ⟨S1x1x49x96x320, .f32⟩
  | .local _ .vmem, ⟨5, _⟩ => ⟨S1x1x49x96x320, .f32⟩
  | .local _ .vmem, ⟨6, _⟩ => ⟨S8x96x320, .f32⟩
  | .local _ .vmem, ⟨7, _⟩ => ⟨S8x96x384, .f32⟩
  | _, _ => ⟨S2x64x96x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c49_i32 : BitVec 32 := 49#32
  let v30 : BitVec 32 := Scalar.addi c0_i32 c49_i32
  let c1_i32 : BitVec 32 := 1#32
  ⟨c0_i32, v30, c1_i32⟩
def k0_off1 (k0_t1 : Fin k0_t1_loop.trips) : Fin 5 → Nat :=
  let c0_29 : Index := 0#32
  let c0_30 : Index := 0#32
  let c0_i32 : BitVec 32 := 0#32
  let c1_i32 : BitVec 32 := 1#32
  let arg7 : BitVec 32 := Scf.iv c0_i32 c1_i32 k0_t1
  let v38 : Index := Scalar.indexCast arg7
  let c0_31 : Index := 0#32
  let c0_32 : Index := 0#32
  ![0, 0, v38.toNat, 0, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x8x96x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x96x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x49x96x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S2x64x96x320_S2x8x8x96x320 : S2x64x96x320.ShapeCasts S2x8x8x96x320
  inb_S1x1x8x96x320_S1x1x8x96x320_0_0_0_0_0 : ∀ a, (![0, 0, 0, 0, 0] : Fin 5 → Nat) a + S1x1x8x96x320.size a ≤ S1x1x8x96x320.size a
  h_S1x1x8x96x320 : 0 < S1x1x8x96x320.numel
  shapeCasts_S1x1x8x96x320_S8x96x320 : S1x1x8x96x320.ShapeCasts S8x96x320
  reduces_S8x96x320_S96x320 : S8x96x320.Reduces [0] S96x320
  shapeCasts_S96x320_S1x96x320 : S96x320.ShapeCasts S1x96x320
  broadcasts_S1x96x320_S8x96x320 : S1x96x320.Broadcasts S8x96x320
  inb_S8x96x320_S8x96x320_0_0_0 : ∀ a, (![0, 0, 0] : Fin 3 → Nat) a + S8x96x320.size a ≤ S8x96x320.size a
  h_S8x96x320 : 0 < S8x96x320.numel
  shapeCasts_S8x96x320_S8x96x320 : S8x96x320.ShapeCasts S8x96x320
  inb_S8x96x384_S8x96x320_0_0_0 : ∀ a, (![0, 0, 0] : Fin 3 → Nat) a + S8x96x320.size a ≤ S8x96x384.size a
  inb_S8x96x384_S8x96x64_0_0_320 : ∀ a, (![0, 0, 320] : Fin 3 → Nat) a + S8x96x64.size a ≤ S8x96x384.size a
  h_S8x96x64 : 0 < S8x96x64.numel
  shapeCasts_S8x96x64_S8x96x64 : S8x96x64.ShapeCasts S8x96x64
  inb_S8x96x384_S8x96x384_0_0_0 : ∀ a, (![0, 0, 0] : Fin 3 → Nat) a + S8x96x384.size a ≤ S8x96x384.size a
  h_S8x96x384 : 0 < S8x96x384.numel
  rotates_S8x96x384_d2 : S8x96x384.Rotates 2 none
  slices_S8x96x384_o0_0_0_S8x96x320 : S8x96x384.Slices ![0, 0, 0] S8x96x320
  h_S1x1x1x96x320 : 0 < S1x1x1x96x320.numel
  shapeCasts_S1x1x1x96x320_S96x320 : S1x1x1x96x320.ShapeCasts S96x320
  shapeCasts_S96x320_S1x1x1x96x320 : S96x320.ShapeCasts S1x1x1x96x320
  hrank0 : 0 < grid0.rank
  k0_t1_ok : k0_t1_loop.OK
  k0_off1_inb : ∀ k0_t1 : Fin k0_t1_loop.trips, ∀ a, (k0_off1 k0_t1) a + S1x1x1x96x320.size a ≤ S1x1x49x96x320.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x8x96x320.size a ≤ S2x8x8x96x320.size a
  hwx0_0 : ∀ i : grid0.Coords, EltTy.bits .f32 = 32 ∨ (Rect.block (s := S2x8x8x96x320) S1x1x8x96x320.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8x96x320.size a ≤ S2x8x8x96x320.size a
  hwx0_1 : ∀ i : grid0.Coords, EltTy.bits .f32 = 32 ∨ (Rect.block (s := S2x8x8x96x320) S1x1x8x96x320.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x49x96x320.size a ≤ S2x8x49x96x320.size a
  hwx0_2 : ∀ i : grid0.Coords, EltTy.bits .f32 = 32 ∨ (Rect.block (s := S2x8x49x96x320) S1x1x49x96x320.size (cc0_transform_2 i) (hinb0_2 i)).WholeWords (EltTy.packing .f32)

variable [Facts₀]

abbrev win0_0 : Pipeline.Window sig grid0 :=
  Pipeline.Window.ofSpec (Memref.whole main_v0) S1x1x8x96x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x8x96x320.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x49x96x320.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x64x96x320 : Shape := ⟨4, ![2, 64, 96, 320]⟩
abbrev S2x8x8x96x320 : Shape := ⟨5, ![2, 8, 8, 96, 320]⟩
abbrev S_ : Shape := ⟨0, ![]⟩
abbrev S2x8x96x320 : Shape := ⟨4, ![2, 8, 96, 320]⟩
abbrev S2x8x1x96x320 : Shape := ⟨5, ![2, 8, 1, 96, 320]⟩
abbrev S2x8x8x96x368 : Shape := ⟨5, ![2, 8, 8, 96, 368]⟩
abbrev S320 : Shape := ⟨1, ![320]⟩
abbrev S1x320 : Shape := ⟨2, ![1, 320]⟩
abbrev S49 : Shape := ⟨1, ![49]⟩
abbrev S49x1 : Shape := ⟨2, ![49, 1]⟩
abbrev S49x320 : Shape := ⟨2, ![49, 320]⟩
abbrev S49x320x1 : Shape := ⟨3, ![49, 320, 1]⟩
abbrev S2x8x8x96x49x320 : Shape := ⟨6, ![2, 8, 8, 96, 49, 320]⟩
abbrev S2x8x8x96x1x320 : Shape := ⟨6, ![2, 8, 8, 96, 1, 320]⟩
abbrev S2x8x96x49x320 : Shape := ⟨5, ![2, 8, 96, 49, 320]⟩
abbrev S2x8x49x96x320 : Shape := ⟨5, ![2, 8, 49, 96, 320]⟩

abbrev nBuf : Space → Nat
  | .hbm => 53
  | .vmem => 0
  | .smem => 0
  | _ => 0

abbrev bufTy : (tb : Table) → Fin (tcTables nBuf tb) → BufTy
  | .hbm, ⟨0, _⟩ => ⟨S2x64x96x320, .f32⟩
  | .hbm, ⟨1, _⟩ => ⟨S2x64x96x320, .f32⟩
  | .hbm, ⟨2, _⟩ => ⟨S2x8x8x96x320, .f32⟩
  | .hbm, ⟨3, _⟩ => ⟨S2x8x8x96x320, .f32⟩
  | .hbm, ⟨4, _⟩ => ⟨S2x8x8x96x320, .f32⟩
  | .hbm, ⟨5, _⟩ => ⟨S_, .f32⟩
  | .hbm, ⟨6, _⟩ => ⟨S2x8x96x320, .f32⟩
  | .hbm, ⟨7, _⟩ => ⟨S2x8x1x96x320, .f32⟩
  | .hbm, ⟨8, _⟩ => ⟨S2x8x1x96x320, .f32⟩
  | .hbm, ⟨9, _⟩ => ⟨S_, .f32⟩
  | .hbm, ⟨10, _⟩ => ⟨S2x8x1x96x320, .f32⟩
  | .hbm, ⟨11, _⟩ => ⟨S2x8x1x96x320, .f32⟩
  | .hbm, ⟨12, _⟩ => ⟨S2x8x8x96x320, .f32⟩
  | .hbm, ⟨13, _⟩ => ⟨S2x8x8x96x320, .f32⟩
  | .hbm, ⟨14, _⟩ => ⟨S2x8x8x96x320, .f32⟩
  | .hbm, ⟨15, _⟩ => ⟨S_, .f32⟩
  | .hbm, ⟨16, _⟩ => ⟨S2x8x96x320, .f32⟩
  | .hbm, ⟨17, _⟩ => ⟨S2x8x1x96x320, .f32⟩
  | .hbm, ⟨18, _⟩ => ⟨S2x8x1x96x320, .f32⟩
  | .hbm, ⟨19, _⟩ => ⟨S_, .f32⟩
  | .hbm, ⟨20, _⟩ => ⟨S2x8x1x96x320, .f32⟩
  | .hbm, ⟨21, _⟩ => ⟨S2x8x1x96x320, .f32⟩
  | .hbm, ⟨22, _⟩ => ⟨S2x8x8x96x320, .f32⟩
  | .hbm, ⟨23, _⟩ => ⟨S2x8x8x96x320, .f32⟩
  | .hbm, ⟨24, _⟩ => ⟨S_, .i32⟩
  | .hbm, ⟨25, _⟩ => ⟨S_, .f32⟩
  | .hbm, ⟨26, _⟩ => ⟨S2x8x8x96x368, .f32⟩
  | .hbm, ⟨27, _⟩ => ⟨S320, .i32⟩
  | .hbm, ⟨28, _⟩ => ⟨S1x320, .i32⟩
  | .hbm, ⟨29, _⟩ => ⟨S_, .i32⟩
  | .hbm, ⟨30, _⟩ => ⟨S1x320, .i32⟩
  | .hbm, ⟨31, _⟩ => ⟨S1x320, .i32⟩
  | .hbm, ⟨32, _⟩ => ⟨S49, .i32⟩
  | .hbm, ⟨33, _⟩ => ⟨S49x1, .i32⟩
  | .hbm, ⟨34, _⟩ => ⟨S49x320, .i32⟩
  | .hbm, ⟨35, _⟩ => ⟨S49x320, .i32⟩
  | .hbm, ⟨36, _⟩ => ⟨S49x320, .i32⟩
  | .hbm, ⟨37, _⟩ => ⟨S_, .i32⟩
  | .hbm, ⟨38, _⟩ => ⟨S49x320, .i32⟩
  | .hbm, ⟨39, _⟩ => ⟨S49x320, .i1⟩
  | .hbm, ⟨40, _⟩ => ⟨S_, .i32⟩
  | .hbm, ⟨41, _⟩ => ⟨S49x320, .i32⟩
  | .hbm, ⟨42, _⟩ => ⟨S49x320, .i32⟩
  | .hbm, ⟨43, _⟩ => ⟨S49x320, .i32⟩
  | .hbm, ⟨44, _⟩ => ⟨S49x320x1, .i32⟩
  | .hbm, ⟨45, _⟩ => ⟨S2x8x8x96x49x320, .f32⟩
  | .hbm, ⟨46, _⟩ => ⟨S2x8x8x96x1x320, .f32⟩
  | .hbm, ⟨47, _⟩ => ⟨S2x8x8x96x49x320, .f32⟩
  | .hbm, ⟨48, _⟩ => ⟨S2x8x8x96x49x320, .f32⟩
  | .hbm, ⟨49, _⟩ => ⟨S2x8x8x96x49x320, .f32⟩
  | .hbm, ⟨50, _⟩ => ⟨S_, .f32⟩
  | .hbm, ⟨51, _⟩ => ⟨S2x8x96x49x320, .f32⟩
  | .hbm, ⟨52, _⟩ => ⟨S2x8x49x96x320, .f32⟩
  | _, _ => ⟨S2x64x96x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_call2_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]

class Facts₀ : Prop where
  shapeCasts_S2x64x96x320_S2x8x8x96x320 : S2x64x96x320.ShapeCasts S2x8x8x96x320
  reducesTo_S2x8x8x96x320_S2x8x96x320_d2 : S2x8x8x96x320.ReducesTo [2] S2x8x96x320
  h_S_ : 0 < S_.numel
  bcast_S2x8x96x320_S2x8x1x96x320_0_1_3_4 : S2x8x96x320.BroadcastsInDim S2x8x1x96x320 (![0, 1, 3, 4] : Fin 4 → Fin S2x8x1x96x320.rank)
  bcast_S_S2x8x1x96x320 : S_.BroadcastsInDim S2x8x1x96x320 (![] : Fin 0 → Fin S2x8x1x96x320.rank)
  bcast_S2x8x1x96x320_S2x8x8x96x320_0_1_2_3_4 : S2x8x1x96x320.BroadcastsInDim S2x8x8x96x320 (![0, 1, 2, 3, 4] : Fin 5 → Fin S2x8x8x96x320.rank)
  pads_S2x8x8x96x320_S2x8x8x96x368_000_000_000_000_4800 : S2x8x8x96x320.Pads (![0, 0, 0, 0, 48] : Fin 5 → Nat) ![0, 0, 0, 0, 0] ![0, 0, 0, 0, 0] S2x8x8x96x368
  bcast_S320_S1x320_1 : S320.BroadcastsInDim S1x320 (![1] : Fin 1 → Fin S1x320.rank)
  bcast_S_S1x320 : S_.BroadcastsInDim S1x320 (![] : Fin 0 → Fin S1x320.rank)
  bcast_S49_S49x1_0 : S49.BroadcastsInDim S49x1 (![0] : Fin 1 → Fin S49x1.rank)
  bcast_S1x320_S49x320_0_1 : S1x320.BroadcastsInDim S49x320 (![0, 1] : Fin 2 → Fin S49x320.rank)
  bcast_S49x1_S49x320_0_1 : S49x1.BroadcastsInDim S49x320 (![0, 1] : Fin 2 → Fin S49x320.rank)
  bcast_S_S49x320 : S_.BroadcastsInDim S49x320 (![] : Fin 0 → Fin S49x320.rank)
  bcast_S49x320_S49x320x1_0_1 : S49x320.BroadcastsInDim S49x320x1 (![0, 1] : Fin 2 → Fin S49x320x1.rank)
  bcast_S2x8x8x96x320_S2x8x8x96x1x320_0_1_2_3_5 : S2x8x8x96x320.BroadcastsInDim S2x8x8x96x1x320 (![0, 1, 2, 3, 5] : Fin 5 → Fin S2x8x8x96x1x320.rank)
  bcast_S2x8x8x96x1x320_S2x8x8x96x49x320_0_1_2_3_4_5 : S2x8x8x96x1x320.BroadcastsInDim S2x8x8x96x49x320 (![0, 1, 2, 3, 4, 5] : Fin 6 → Fin S2x8x8x96x49x320.rank)
  reducesTo_S2x8x8x96x49x320_S2x8x96x49x320_d2 : S2x8x8x96x49x320.ReducesTo [2] S2x8x96x49x320
  transposes_S2x8x96x49x320_S2x8x49x96x320_0_1_3_2_4 : S2x8x96x49x320.Transposes [0, 1, 3, 2, 4] S2x8x49x96x320
  gather_S2x8x8x96x368_S49x320x1_S2x8x8x96x49x320_0123_4_n_n_4_2_288961_wf : GatherDims.WF S2x8x8x96x368 S49x320x1 S2x8x8x96x49x320 [0, 1, 2, 3] [4] [] [4] [] 2 ![2, 8, 8, 96, 1]

variable [Facts₀]

def gather_S2x8x8x96x368_S49x320x1_S2x8x8x96x49x320_0123_4_n_n_4_2_288961 : GatherDims S2x8x8x96x368 S49x320x1 S2x8x8x96x49x320 where
  offsetDims := [0, 1, 2, 3]
  collapsedSliceDims := [4]
  operandBatchingDims := []
  startIndicesBatchingDims := []
  startIndexMap := [4]
  indexVectorDim := 2
  sliceSizes := ![2, 8, 8, 96, 1]
  wf := gather_S2x8x8x96x368_S49x320x1_S2x8x8x96x49x320_0123_4_n_n_4_2_288961_wf

class Facts : Prop extends Facts₀ where

variable [Facts]
-- ==== Proof.Body.lean ====
/-
  What one grid point's body leaves in the output block, as ONE function of the two input blocks.

  The body first writes two scratch buffers: the x block divided by its channel norm (whole buffer), and the y block
  divided by its channel norm into the first 320 columns of a 384-column buffer whose last 64 columns it zeroes. Then,
  for each shift d = 0 … 48, it stores plane d of the output block, computed from those two buffers alone. So every
  store into the output block is the restriction of one function of the block index (`blkOut`), whatever the number of
  shifts: the stores of the shifts before d are a list built by recursion on d, and each member is such a store.
-/
import proofs.«404071_j7241314861165_3_alg».proof.Proof.Gen.KernelIdeal.Frame
import Idealize.ShloMosaic.Lib.Pipeline.Value
import Idealize.ShloMosaic.Lib.ValueIdx

set_option maxRecDepth 16384

noncomputable section

namespace Cert.CostVolume.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- The loop makes 49 trips. -/
theorem trips_eq : k0_t1_loop.trips = 49 := by decide +kernel

/-! ## The two scratch buffers as the loop finds them -/

/-- The two stores into the 384-column scratch: the zeroed last 64 columns (made last), and `w` in the first 320. -/
abbrev padPieces (w : S8x96x320.Idx → Elt F .f32) : List (View.Piece (Elt F) S8x96x384 .f32) :=
  [⟨Rect.unit ![0, 0, 320] S8x96x64.size inb_S8x96x384_S8x96x64_0_0_320, k0_pay4⟩,
   ⟨Rect.unit ![0, 0, 0] S8x96x320.size inb_S8x96x384_S8x96x320_0_0_0, w⟩]

/-- They tile the buffer: a column below 320 is in the second, any other in the first. -/
theorem padPieces_cover (w : S8x96x320.Idx → Elt F .f32) (y : S8x96x384.Idx) : ∃ p ∈ padPieces w, y ∈ p.1.set := by
  have h0 : (y 0).val < 8 := (y 0).isLt
  have h1 : (y 1).val < 96 := (y 1).isLt
  have h2 : (y 2).val < 384 := (y 2).isLt
  by_cases h : (y 2).val < 320
  · refine ⟨_, List.mem_cons_of_mem _ (List.mem_singleton_self _), ?_⟩
    rw [Rect.mem_set_unit]
    intro a
    match a with
    | ⟨0, _⟩ => show 0 ≤ (y 0).val ∧ (y 0).val < 0 + 8; omega
    | ⟨1, _⟩ => show 0 ≤ (y 1).val ∧ (y 1).val < 0 + 96; omega
    | ⟨2, _⟩ => show 0 ≤ (y 2).val ∧ (y 2).val < 0 + 320; omega
  · refine ⟨_, List.mem_cons_self, ?_⟩
    rw [Rect.mem_set_unit]
    intro a
    match a with
    | ⟨0, _⟩ => show 0 ≤ (y 0).val ∧ (y 0).val < 0 + 8; omega
    | ⟨1, _⟩ => show 0 ≤ (y 1).val ∧ (y 1).val < 0 + 96; omega
    | ⟨2, _⟩ => show 320 ≤ (y 2).val ∧ (y 2).val < 320 + 64; omega

/-- The 384-column scratch as the loop finds it: the normalised y block, then 64 zero columns. -/
def padded (x1 : Vec F S1x1x8x96x320 .f32) : S8x96x384.Idx → Elt F .f32 := View.canon (padPieces (k0_pay3 x1))

/-- A whole-buffer load of the 384-column scratch after its two stores reads `padded`. -/
theorem reads_padded (arg3 : Memref sig .tc .vmem S1x1x8x96x320 .f32) (harg3 : arg3.IsWhole) (arg6 : Memref sig .tc .vmem S8x96x384 .f32)
    (x1 : Vec F S1x1x8x96x320 .f32) :
    View.readAt (Elt F) arg6.view (Rect.unit ![0, 0, 0] S8x96x384.size inb_S8x96x384_S8x96x384_0_0_0).toLoadRect
        (arg6.view.writes (Elt F) arg6.view.junk
          (padPieces (k0_pay3 (View.readAt (Elt F) arg3.view
            (Rect.unit ![0, 0, 0, 0, 0] S1x1x8x96x320.size inb_S1x1x8x96x320_S1x1x8x96x320_0_0_0_0_0).toLoadRect (harg3.unread x1)))))
      = padded x1 := by
  rw [View.readAt_eq_ld, View.read_writes_eq_canon _ _ _ (padPieces_cover _), View.ld_unit_zero (S := S8x96x384) hz3]
  unfold padded
  simp only [View.readAt_eq_ld, harg3.read_unread, View.ld_unit_zero (S := S1x1x8x96x320) hz5]

/-- A whole-buffer load of the 320-column scratch after its one store reads the normalised x block. -/
theorem reads_unit (arg2 : Memref sig .tc .vmem S1x1x8x96x320 .f32) (harg2 : arg2.IsWhole) (arg5 : Memref sig .tc .vmem S8x96x320 .f32)
    (x0 : Vec F S1x1x8x96x320 .f32) :
    View.readAt (Elt F) arg5.view (Rect.unit ![0, 0, 0] S8x96x320.size inb_S8x96x320_S8x96x320_0_0_0).toLoadRect
        (arg5.view.writes (Elt F) arg5.view.junk
          [⟨Rect.unit ![0, 0, 0] S8x96x320.size inb_S8x96x320_S8x96x320_0_0_0,
            k0_pay2 (View.readAt (Elt F) arg2.view
              (Rect.unit ![0, 0, 0, 0, 0] S1x1x8x96x320.size inb_S1x1x8x96x320_S1x1x8x96x320_0_0_0_0_0).toLoadRect (harg2.unread x0))⟩])
      = k0_pay2 x0 := by
  rw [View.readAt_eq_ld, View.read_writes_eq_canon _ _ _ (fun y => ⟨_, List.mem_singleton_self _, View.mem_set_unit_zero hz3 inb_S8x96x320_S8x96x320_0_0_0 y⟩),
    View.canon_unit_zero hz3, View.ld_unit_zero (S := S8x96x320) hz3]
  simp only [View.readAt_eq_ld, harg2.read_unread, View.ld_unit_zero (S := S1x1x8x96x320) hz5]

/-! ## The output block -/

/-- Plane `d` of the output block as the body computes it from the two scratch buffers. -/
def blkRow (x0 x1 : Vec F S1x1x8x96x320 .f32) (d : Fin k0_t1_loop.trips) : S1x1x1x96x320.Idx → Elt F .f32 :=
  k0_pay1 0#32 d (padded x1) (k0_pay2 x0)

/-- The output block: at (0, 0, d, h, j), plane `d` at (h, j). -/
def blkOut (x0 x1 : Vec F S1x1x8x96x320 .f32) : S1x1x49x96x320.Idx → Elt F .f32 := fun y =>
  blkRow x0 x1 ⟨(y 2).val, by rw [trips_eq]; exact (y 2).isLt⟩
    (ix5 (0 : Fin 1) (0 : Fin 1) (0 : Fin 1) (⟨(y 3).val, (y 3).isLt⟩ : Fin 96) (⟨(y 4).val, (y 4).isLt⟩ : Fin 320))

/-- Planes and positions that agree coordinate by coordinate give the same entry. -/
theorem blkRow_congr (x0 x1 : Vec F S1x1x8x96x320 .f32) (d d' : Fin k0_t1_loop.trips) (hd : d.val = d'.val)
    (z z' : S1x1x1x96x320.Idx) (hz : ∀ a, (z a).val = (z' a).val) : blkRow x0 x1 d z = blkRow x0 x1 d' z' := by
  obtain rfl : d = d' := Fin.ext hd
  obtain rfl : z = z' := funext fun a => Fin.ext (hz a)
  rfl

/-! ## The loop's stores -/

/-- One trip stores one plane: its one piece. -/
theorem tripL_eq (𝒱 : Variants) (c : Dev nD) (bd : Option 𝒱.V) (i : grid0.Coords) (arg2 : Memref sig .tc .vmem S1x1x8x96x320 .f32) (harg2 : arg2.IsWhole) (arg3 : Memref sig .tc .vmem S1x1x8x96x320 .f32) (harg3 : arg3.IsWhole) (arg4 : Memref sig .tc .vmem S1x1x49x96x320 .f32) (harg4 : arg4.IsWhole) (arg5 : Memref sig .tc .vmem S8x96x320 .f32) (harg5 : arg5.IsWhole) (arg6 : Memref sig .tc .vmem S8x96x384 .f32) (harg6 : arg6.IsWhole) (c0 : BitVec 32)
    (X5 : BufTy.Contents (Elt F) arg5.view.ty) (X6 : BufTy.Contents (Elt F) arg6.view.ty) (k : Fin k0_t1_loop.trips) :
    tripL_k0_t1 (F := F) 𝒱 c bd i arg2 harg2 arg3 harg3 arg4 harg4 arg5 harg5 arg6 harg6 c0 X5 X6 k
      = [⟨Rect.unit (k0_off1 k) S1x1x1x96x320.size (k0_off1_inb k),
          k0_pay1 c0 k
            (View.readAt (Elt F) arg6.view (Rect.unit ![0, 0, 0] S8x96x384.size inb_S8x96x384_S8x96x384_0_0_0).toLoadRect X6)
            (View.readAt (Elt F) arg5.view (Rect.unit ![0, 0, 0] S8x96x320.size inb_S8x96x320_S8x96x320_0_0_0).toLoadRect X5)⟩] := by
  unfold tripL_k0_t1 trip_k0_t1
  rfl

/-- Every store of the trips before `n` is some trip's plane. -/
theorem pb_mem (𝒱 : Variants) (c : Dev nD) (bd : Option 𝒱.V) (i : grid0.Coords) (arg2 : Memref sig .tc .vmem S1x1x8x96x320 .f32) (harg2 : arg2.IsWhole) (arg3 : Memref sig .tc .vmem S1x1x8x96x320 .f32) (harg3 : arg3.IsWhole) (arg4 : Memref sig .tc .vmem S1x1x49x96x320 .f32) (harg4 : arg4.IsWhole) (arg5 : Memref sig .tc .vmem S8x96x320 .f32) (harg5 : arg5.IsWhole) (arg6 : Memref sig .tc .vmem S8x96x384 .f32) (harg6 : arg6.IsWhole) (c0 : BitVec 32)
    (X5 : BufTy.Contents (Elt F) arg5.view.ty) (X6 : BufTy.Contents (Elt F) arg6.view.ty) :
    ∀ n, n ≤ k0_t1_loop.trips → ∀ p ∈ pb_k0_t1 (F := F) 𝒱 c bd i arg2 harg2 arg3 harg3 arg4 harg4 arg5 harg5 arg6 harg6 c0 X5 X6 n,
      ∃ k : Fin k0_t1_loop.trips, p = ⟨Rect.unit (k0_off1 k) S1x1x1x96x320.size (k0_off1_inb k),
          k0_pay1 c0 k
            (View.readAt (Elt F) arg6.view (Rect.unit ![0, 0, 0] S8x96x384.size inb_S8x96x384_S8x96x384_0_0_0).toLoadRect X6)
            (View.readAt (Elt F) arg5.view (Rect.unit ![0, 0, 0] S8x96x320.size inb_S8x96x320_S8x96x320_0_0_0).toLoadRect X5)⟩
  | 0, _, p, hp => by
    rw [pb_k0_t1.eq_1] at hp
    exact absurd hp List.not_mem_nil
  | n + 1, hn, p, hp => by
    have e := pb_k0_t1_succ (F := F) 𝒱 c bd i arg2 harg2 arg3 harg3 arg4 harg4 arg5 harg5 arg6 harg6 c0 X5 X6 ⟨n, hn⟩
    rw [show (⟨n, hn⟩ : Fin k0_t1_loop.trips).val + 1 = n + 1 from rfl] at e
    rw [e] at hp
    rcases List.mem_append.mp hp with h | h
    · rw [tripL_eq] at h
      exact ⟨⟨n, hn⟩, List.mem_singleton.mp h⟩
    · exact pb_mem 𝒱 c bd i arg2 harg2 arg3 harg3 arg4 harg4 arg5 harg5 arg6 harg6 c0 X5 X6 n (Nat.le_of_succ_le hn) p h

/-- WHAT THE BODY LEAVES IN THE OUTPUT BLOCK: `blkOut` of the two input blocks. -/
theorem out_eq (c : Dev nD) (i : grid0.Coords) (arg2 : Memref sig .tc .vmem S1x1x8x96x320 .f32) (harg2 : arg2.IsWhole) (arg3 : Memref sig .tc .vmem S1x1x8x96x320 .f32) (harg3 : arg3.IsWhole) (arg4 : Memref sig .tc .vmem S1x1x49x96x320 .f32) (harg4 : arg4.IsWhole) (arg5 : Memref sig .tc .vmem S8x96x320 .f32) (harg5 : arg5.IsWhole) (arg6 : Memref sig .tc .vmem S8x96x384 .f32) (harg6 : arg6.IsWhole)
    (x0 x1 : Vec F S1x1x8x96x320 .f32) :
    out0_A_2 c i arg2 harg2 arg3 harg3 arg4 harg4 arg5 harg5 arg6 harg6 x0 x1 = blkOut x0 x1 := by
  unfold out0_A_2
  rw [View.read_writes_eq_canon _ _ _ (cover0_A_2 c i arg2 harg2 arg3 harg3 arg4 harg4 arg5 harg5 arg6 harg6 x0 x1)]
  funext y
  refine View.canon_apply_of_pieces (blkOut x0 x1) _ ?_ y (cover0_A_2 c i arg2 harg2 arg3 harg3 arg4 harg4 arg5 harg5 arg6 harg6 x0 x1 y)
  unfold kernelRun0_A
  dsimp only
  sl_unfold_words
  intro p hp x
  obtain ⟨k, rfl⟩ := pb_mem _ _ _ _ _ _ _ _ _ _ _ _ _ _ _ _ _ _ le_rfl p hp
  dsimp only
  rw [reads_padded arg3 harg3 arg6 x1, reads_unit arg2 harg2 arg5 x0]
  have h0 : (x 0).val < 1 := (x 0).isLt
  have h1 : (x 1).val < 1 := (x 1).isLt
  have h2 : (x 2).val < 1 := (x 2).isLt
  have e2 : k0_off1 k 2 = k.val := congrFun (k0_off1_eq k) 2
  have e3 : k0_off1 k 3 = 0 := congrFun (k0_off1_eq k) 3
  have e4 : k0_off1 k 4 = 0 := congrFun (k0_off1_eq k) 4
  refine blkRow_congr x0 x1 k _ ?_ x _ ?_
  · show k.val = k0_off1 k 2 + 1 * (x 2).val
    omega
  · intro a
    match a with
    | ⟨0, _⟩ => show (x 0).val = 0; omega
    | ⟨1, _⟩ => show (x 1).val = 0; omega
    | ⟨2, _⟩ => show (x 2).val = 0; omega
    | ⟨3, _⟩ => show (x 3).val = k0_off1 k 3 + 1 * (x 3).val; omega
    | ⟨4, _⟩ => show (x 4).val = k0_off1 k 4 + 1 * (x 4).val; omega

end Cert.CostVolume.Body

end
-- ==== Proof.Spec.lean ====
/-
  The cost volume, as one function of the two grouped input arrays.

  Both programs first regroup the 64 channels of x and y (each [2, 64, 96, 320]) as 8 groups of 8: X, Y of shape
  [2, 8, 8, 96, 320], indexed (batch b, group g, channel c, row h, column j). At every pixel the 8-channel vector is
  divided by its Euclidean length plus a small constant ε (`unitOf`). The result, of shape [2, 8, 49, 96, 320], holds at
  (b, g, d, h, j) the L1 distance, over the 8 channels, between X's unit vector at column j and Y's unit vector at
  column j − d; where j − d would fall off the left edge (j < d) Y's vector is replaced by zero, so the entry is the
  L1 length of X's unit vector.
-/
import Idealize.ShloMosaic.PureOps.Ideal
import Idealize.ShloMosaic.Lib.ValueIdx

noncomputable section

namespace Cert.CostVolume

open Idealize.ShloMosaic Idealize.ShloMosaic.ValueIdx

/-- The grouped inputs' shape and the cost volume's. -/
abbrev SIn : Shape := ⟨5, ![2, 8, 8, 96, 320]⟩
abbrev SOut : Shape := ⟨5, ![2, 8, 49, 96, 320]⟩

/-- ε: the extended real the f32 word of 1e-5 denotes (the same word in both programs, never evaluated). -/
def eps : EReal := Ideal.ofBits .f32 0x3727C5AC#32

/-- |a| on the extended reals. -/
def absE (a : EReal) : EReal := max a (-a)

/-- Channel `c` of the 8-vector `v` divided by (‖v‖₂ + ε). -/
def unitOf (v : Fin 8 → EReal) (c : Fin 8) : EReal :=
  Ideal.div (v c) (Ideal.sqrt (∑ k : Fin 8, v k * v k) + eps)

/-- The L1 distance between the unit vector of `v` and an 8-vector `w`. -/
def l1 (v w : Fin 8 → EReal) : EReal := ∑ c : Fin 8, absE (unitOf v c - w c)

/-- The 8-channel vector of a grouped array at pixel (b, g, ·, h, j). -/
def chan (X : SIn.Idx → EReal) (b : Fin 2) (g : Fin 8) (h : Fin 96) (j : Fin 320) : Fin 8 → EReal :=
  fun c => X (ix5 b g c h j)

/-- Y's unit vector `d` columns to the left of column `j`, zero when that is off the left edge. -/
def shifted (Y : SIn.Idx → EReal) (b : Fin 2) (g : Fin 8) (h : Fin 96) (d : Fin 49) (j : Fin 320) : Fin 8 → EReal :=
  fun c => if hd : d.val ≤ j.val then unitOf (chan Y b g h ⟨j.val - d.val, by omega⟩) c else 0

/-- THE COST VOLUME: entry (b, g, d, h, j). -/
def cost (X Y : SIn.Idx → EReal) : SOut.Idx → EReal := fun i =>
  l1 (chan X (i 0) (i 1) (i 3) (i 4)) (shifted Y (i 0) (i 1) (i 3) (i 2) (i 4))

theorem cost_apply (X Y : SIn.Idx → EReal) (b : Fin 2) (g : Fin 8) (d : Fin 49) (h : Fin 96) (j : Fin 320) :
    cost X Y (ix5 b g d h j) = l1 (chan X b g h j) (shifted Y b g h d j) := rfl

end Cert.CostVolume

end
-- ==== Proof.BodyValue.lean ====
/-
  One plane of the output block, read at an entry, over the extended reals.

  Plane d of the block at (h, j) is the sum over the 8 channels c of |u(c, h, j) − p(c, h, (j − d) mod 384)|, where u is the
  x block divided by its channel norm plus ε and p is the 384-column buffer holding the y block so divided in columns
  0 … 319 and zero in columns 320 … 383. For d ≤ 48 and j < 320: when d ≤ j the rotated column is j − d, inside the y block;
  when j < d it is j + 384 − d ≥ 336, inside the zero columns. So the entry is the L1 distance of the specification.
-/
import proofs.«404071_j7241314861165_3_alg».proof.Proof.Body
import proofs.«404071_j7241314861165_3_alg».proof.Proof.Spec
import Idealize.ShloMosaic.Lib.KernelVsHost
import Idealize.ShloMosaic.PureOps.Ideal.Laws

set_option maxRecDepth 16384

noncomputable section

namespace Cert.CostVolume.Body

open Cert.KernelIdeal Cert.KernelIdeal.Gen Cert.CostVolume
open Idealize.ShloMosaic Idealize.ShloMosaic.TcCoe Idealize.ShloMosaic.ValueIdx
open Idealize.SL.Sem

/-! ## Layout steps of the body read at an entry -/

section Layout
variable {α : Type}

/-- The block [1, 1, 8, 96, 320] seen as [8, 96, 320]. -/
theorem cast_blk (x : S1x1x8x96x320.Idx → α) (c : Fin 8) (h : Fin 96) (j : Fin 320) :
    shapeCast S8x96x320 x shapeCasts_S1x1x8x96x320_S8x96x320 (ix3 c h j) = x (ix5 (0 : Fin 1) (0 : Fin 1) c h j) :=
  shapeCast_apply x _ (ix3 c h j) (ix5 (0 : Fin 1) (0 : Fin 1) c h j) (by
    rw [Shape.rowMajor_val_five, Shape.rowMajor_val_three]
    show (((0 * 1 + 0) * 8 + c.val) * 96 + h.val) * 320 + j.val = (c.val * 96 + h.val) * 320 + j.val
    omega)

/-- A [96, 320] plane seen as [1, 96, 320]. -/
theorem cast_row (v : S96x320.Idx → α) (h : Fin 96) (j : Fin 320) :
    shapeCast S1x96x320 v shapeCasts_S96x320_S1x96x320 (ix3 (0 : Fin 1) h j) = v (ix2 h j) :=
  shapeCast_apply v _ (ix3 (0 : Fin 1) h j) (ix2 h j) (by
    rw [Shape.rowMajor_val_two, Shape.rowMajor_val_three]
    show h.val * 320 + j.val = (0 * 96 + h.val) * 320 + j.val
    omega)

/-- A [96, 320] plane seen as [1, 1, 1, 96, 320]. -/
theorem cast_plane (v : S96x320.Idx → α) (h : Fin 96) (j : Fin 320) :
    shapeCast S1x1x1x96x320 v shapeCasts_S96x320_S1x1x1x96x320 (ix5 (0 : Fin 1) (0 : Fin 1) (0 : Fin 1) h j) = v (ix2 h j) :=
  shapeCast_apply v _ (ix5 (0 : Fin 1) (0 : Fin 1) (0 : Fin 1) h j) (ix2 h j) (by
    rw [Shape.rowMajor_val_two, Shape.rowMajor_val_five]
    show h.val * 320 + j.val = (((0 * 1 + 0) * 1 + 0) * 96 + h.val) * 320 + j.val
    omega)

/-- One row of norms laid under all 8 channels. -/
theorem bcast_row (v : S1x96x320.Idx → α) (c : Fin 8) (h : Fin 96) (j : Fin 320) :
    broadcastTo S8x96x320 v broadcasts_S1x96x320_S8x96x320 (ix3 c h j) = v (ix3 (0 : Fin 1) h j) :=
  broadcastTo_apply v _ (ix3 c h j) (ix3 (0 : Fin 1) h j) (by
    intro a
    match a with
    | ⟨0, _⟩ => rfl
    | ⟨1, _⟩ => rfl
    | ⟨2, _⟩ => rfl)

/-- The first 320 columns of a 384-column buffer. -/
theorem slice_cols (v : S8x96x384.Idx → α) (c : Fin 8) (h : Fin 96) (j : Fin 320) :
    extractStridedSlice S8x96x320 ![0, 0, 0] v slices_S8x96x384_o0_0_0_S8x96x320 (ix3 c h j)
      = v (ix3 c h (⟨j.val, by omega⟩ : Fin 384)) :=
  extractStridedSlice_apply _ v _ (ix3 c h j) (ix3 c h (⟨j.val, by omega⟩ : Fin 384)) (by
    intro a
    match a with
    | ⟨0, _⟩ => show c.val = 0 + c.val; omega
    | ⟨1, _⟩ => show h.val = 0 + h.val; omega
    | ⟨2, _⟩ => show j.val = 0 + j.val; omega)

/-- A rotation of the columns by `sb`: column k of the result is column (k − sb) mod 384 of the operand. -/
theorem rot_cols (v : S8x96x384.Idx → α) (sb : BitVec 32) (c : Fin 8) (h : Fin 96) (k : Fin 384) :
    dynamicRotate 2 sb none v rotates_S8x96x384_d2 (ix3 c h k)
      = v (ix3 c h (⟨(k.val + 384 - sb.toNat % 384) % 384, Nat.mod_lt _ (by omega)⟩ : Fin 384)) :=
  dynamicRotate_apply (2 : Fin 3) sb v _ (ix3 c h k) _ (by
    intro b
    match b with
    | ⟨0, _⟩ => rfl
    | ⟨1, _⟩ => rfl
    | ⟨2, _⟩ => rfl)

end Layout

/-! ## Pointwise steps at the extended reals -/

theorem sqrt_apply {s : Shape} (a : FVec Ideal s .f32) (i : s.Idx) : sqrt a i = Ideal.sqrt (a i) := rfl
theorem absf_apply {s : Shape} (a : FVec Ideal s .f32) (i : s.Idx) : absf a i = absE (a i) := rfl
theorem scalar_eps : (Scalar.ofBits (F := Ideal) .f32 0x3727C5AC#32) = eps := rfl

/-- The induction variable of trip `d` is the word `d`. -/
theorem iv_toNat : ∀ d : Fin k0_t1_loop.trips, (Scf.iv 0#32 1#32 d).toNat = d.val := by decide +kernel

/-! ## The normalised blocks -/

/-- The 8-channel vector of a block at (h, j). -/
def bchan (x : Vec Ideal S1x1x8x96x320 .f32) (h : Fin 96) (j : Fin 320) : Fin 8 → EReal :=
  fun c => x (ix5 (0 : Fin 1) (0 : Fin 1) c h j)

/-- Channel k's square, as the body's product read at the lifted index. -/
theorem sq_term (x : Vec Ideal S1x1x8x96x320 .f32) (h : Fin 96) (j : Fin 320) (k : Fin 8) :
    mulf (F := Ideal) (φ := .f32) (shapeCast S8x96x320 x shapeCasts_S1x1x8x96x320_S8x96x320) (shapeCast S8x96x320 x shapeCasts_S1x1x8x96x320_S8x96x320)
        (reduces_S8x96x320_S96x320.lift (ix2 h j) k)
      = bchan x h j k * bchan x h j k := by
  rw [show reduces_S8x96x320_S96x320.lift (ix2 h j) k = ix3 k h j from
    funext fun a => Fin.ext (by match a with | ⟨0, _⟩ => rfl | ⟨1, _⟩ => rfl | ⟨2, _⟩ => rfl)]
  rw [mulf_apply, cast_blk]
  rfl

/-- The sum of squares over the channels, as the body's reduction over axis 0. -/
theorem sumsq (x : Vec Ideal S1x1x8x96x320 .f32) (hφ : FKind.Formats .f32)
    (hacc : (0x00000000#32 : BitVec 32) = 0x00000000#32) (h : Fin 96) (j : Fin 320) :
    multiReduction (F := Ideal) .add [0] S96x320
        (mulf (shapeCast S8x96x320 x shapeCasts_S1x1x8x96x320_S8x96x320) (shapeCast S8x96x320 x shapeCasts_S1x1x8x96x320_S8x96x320))
        0x00000000#32 reduces_S8x96x320_S96x320 hφ hacc (ix2 h j)
      = ∑ k : Fin 8, bchan x h j k * bchan x h j k :=
  (Ideal.multiReduction_add_single _ 0x00000000#32 reduces_S8x96x320_S96x320 hφ hacc (ix2 h j)).trans
    (Finset.sum_congr rfl fun k _ => sq_term x h j k)

/-- The x block's normalisation at an entry. -/
theorem pay2_apply (x : Vec Ideal S1x1x8x96x320 .f32) (c : Fin 8) (h : Fin 96) (j : Fin 320) :
    k0_pay2 x (ix3 c h j) = unitOf (bchan x h j) c := by
  unfold k0_pay2
  dsimp only
  rw [shapeCast_self, divf_apply, cast_blk, bcast_row, addf_apply, sqrt_apply, cast_row]
  exact congrArg (fun s => Ideal.div (x (ix5 (0 : Fin 1) (0 : Fin 1) c h j)) (Ideal.sqrt s + eps)) (sumsq x _ _ h j)

/-- The y block's normalisation is the same function of its block. -/
theorem pay3_eq (x : Vec Ideal S1x1x8x96x320 .f32) : k0_pay3 x = k0_pay2 x := rfl

/-! ## The 384-column buffer at an entry -/

/-- The f32 zero the body splats into the last 64 columns is 0. -/
theorem pay4_apply (i : S8x96x64.Idx) : k0_pay4 (F := Ideal) i = 0 := by
  unfold k0_pay4
  rw [shapeCast_self, broadcast_apply]
  exact Ideal.ofBits_zero_f32

/-- Column k of the padded buffer: the y block's normalisation for k < 320, zero from 320 on. -/
theorem padded_apply (x1 : Vec Ideal S1x1x8x96x320 .f32) (c : Fin 8) (h : Fin 96) (k : Fin 384) :
    padded x1 (ix3 c h k) = if hk : k.val < 320 then unitOf (bchan x1 h ⟨k.val, hk⟩) c else 0 := by
  unfold padded
  by_cases hk : k.val < 320
  · rw [dif_pos hk, View.canon_cons_of_not_mem _ _ (by
      rw [Rect.mem_set_unit]
      intro hall
      have h2 : 320 ≤ k.val ∧ k.val < 320 + 64 := hall (2 : Fin 3)
      omega)]
    have e : (ix3 c h k : S8x96x384.Idx)
        = (Rect.unit (s := S8x96x384) ![0, 0, 0] S8x96x320.size inb_S8x96x384_S8x96x320_0_0_0).emb (ix3 c h (⟨k.val, hk⟩ : Fin 320)) :=
      funext fun a => Fin.ext (by
        match a with
        | ⟨0, _⟩ => show c.val = 0 + 1 * c.val; omega
        | ⟨1, _⟩ => show h.val = 0 + 1 * h.val; omega
        | ⟨2, _⟩ => show k.val = 0 + 1 * k.val; omega)
    rw [e, View.canon_cons_emb, pay3_eq, pay2_apply]
  · rw [dif_neg hk]
    have hk' : k.val < 384 := k.isLt
    have e : (ix3 c h k : S8x96x384.Idx)
        = (Rect.unit (s := S8x96x384) ![0, 0, 320] S8x96x64.size inb_S8x96x384_S8x96x64_0_0_320).emb (ix3 c h (⟨k.val - 320, by omega⟩ : Fin 64)) :=
      funext fun a => Fin.ext (by
        match a with
        | ⟨0, _⟩ => show c.val = 0 + 1 * c.val; omega
        | ⟨1, _⟩ => show h.val = 0 + 1 * h.val; omega
        | ⟨2, _⟩ => show k.val = 320 + 1 * (k.val - 320); omega)
    rw [e, View.canon_cons_emb, pay4_apply]

/-! ## One plane at an entry -/

/-- The y block's unit vector `d` columns to the left of column `j`, zero when that is off the left edge. -/
def bshift (x1 : Vec Ideal S1x1x8x96x320 .f32) (h : Fin 96) (d : Nat) (j : Fin 320) : Fin 8 → EReal :=
  fun c => if hd : d ≤ j.val then unitOf (bchan x1 h ⟨j.val - d, by omega⟩) c else 0

/-- Channel k's term of plane `d` at (h, j). -/
theorem term_apply (x0 x1 : Vec Ideal S1x1x8x96x320 .f32) (d : Fin k0_t1_loop.trips) (h : Fin 96) (j : Fin 320) (k : Fin 8) :
    absf (F := Ideal) (subf (k0_pay2 x0)
        (extractStridedSlice S8x96x320 ![0, 0, 0]
          (dynamicRotate 2 (Scf.iv 0#32 1#32 d) none (padded x1) rotates_S8x96x384_d2) slices_S8x96x384_o0_0_0_S8x96x320))
        (reduces_S8x96x320_S96x320.lift (ix2 h j) k)
      = absE (unitOf (bchan x0 h j) k - bshift x1 h d.val j k) := by
  have hd49 : d.val < 49 := Nat.lt_of_lt_of_le d.isLt (le_of_eq trips_eq)
  have hj : j.val < 320 := j.isLt
  rw [show reduces_S8x96x320_S96x320.lift (ix2 h j) k = ix3 k h j from
    funext fun a => Fin.ext (by match a with | ⟨0, _⟩ => rfl | ⟨1, _⟩ => rfl | ⟨2, _⟩ => rfl)]
  rw [absf_apply, subf_apply, pay2_apply, slice_cols, rot_cols, padded_apply, iv_toNat]
  unfold bshift
  by_cases hdj : d.val ≤ j.val
  · have e : (j.val + 384 - d.val % 384) % 384 = j.val - d.val := by
      rw [Nat.mod_eq_of_lt (by omega : d.val < 384), show j.val + 384 - d.val = (j.val - d.val) + 384 by omega,
        Nat.add_mod_right, Nat.mod_eq_of_lt (by omega)]
    rw [dif_pos hdj, dif_pos (by show (j.val + 384 - d.val % 384) % 384 < 320; omega)]
    simp only [e]
  · have e : (j.val + 384 - d.val % 384) % 384 = j.val + 384 - d.val := by
      rw [Nat.mod_eq_of_lt (by omega : d.val < 384), Nat.mod_eq_of_lt (by omega)]
    rw [dif_neg hdj, dif_neg (by show ¬ (j.val + 384 - d.val % 384) % 384 < 320; omega)]

/-- PLANE `d` AT (h, j): the L1 distance between the x block's unit vector at column j and the y block's at column j − d. -/
theorem blkRow_apply (x0 x1 : Vec Ideal S1x1x8x96x320 .f32) (d : Fin k0_t1_loop.trips) (h : Fin 96) (j : Fin 320) :
    blkRow x0 x1 d (ix5 (0 : Fin 1) (0 : Fin 1) (0 : Fin 1) h j) = l1 (bchan x0 h j) (bshift x1 h d.val j) := by
  unfold blkRow k0_pay1
  dsimp only
  rw [cast_plane]
  refine (Ideal.multiReduction_add_single _ 0x00000000#32 reduces_S8x96x320_S96x320 _ _ (ix2 h j)).trans ?_
  exact Finset.sum_congr rfl fun k _ => term_apply x0 x1 d h j k

end Cert.CostVolume.Body

end
-- ==== Proof.KernelArray.lean ====
/-
  From the blocks to the whole array: the kernel's result is the cost volume of the regrouped inputs.

  The grid has one point per (batch b, group g). Point (b, g) reads block (b, g) of each regrouped input — all 8 channels,
  all rows and columns — and writes block (b, g) of the result — all 49 shifts, all rows and columns. What it writes is
  the block function of its two input blocks, which entry by entry is the cost volume at (b, g, d, h, j). The 16 result
  blocks tile the result, so the whole array is the cost volume.
-/
import proofs.«404071_j7241314861165_3_alg».proof.Proof.BodyValue
import proofs.«404071_j7241314861165_3_alg».proof.Proof.Gen.KernelIdeal.Value
import Idealize.ShloMosaic.Lib.Pipeline.Value
import Idealize.ShloMosaic.Lib.StableHlo.Run

set_option maxRecDepth 16384

noncomputable section

namespace Cert.CostVolume.KernelArray

open Cert.KernelIdeal Cert.KernelIdeal.Gen Cert.KernelIdeal.Value Cert.CostVolume Cert.CostVolume.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The two regrouped inputs as the kernel region finds them. -/
abbrev gx (c : Dev nD) : Vec Ideal S2x8x8x96x320 .f32 := V m c main_v0
abbrev gy (c : Dev nD) : Vec Ideal S2x8x8x96x320 .f32 := V m c main_v1

/-- The index maps over the 16 grid points: all three windows sit at block (b, g, 0, 0, 0) of their arrays, b < 2, g < 8. -/
theorem idx_facts : ∀ t : Fin cfg0.N,
    win0_0.index t (0 : Fin 5) = win0_2.index t (0 : Fin 5) ∧ win0_0.index t (1 : Fin 5) = win0_2.index t (1 : Fin 5)
    ∧ win0_0.index t (2 : Fin 5) = 0 ∧ win0_0.index t (3 : Fin 5) = 0 ∧ win0_0.index t (4 : Fin 5) = 0
    ∧ win0_1.index t (0 : Fin 5) = win0_2.index t (0 : Fin 5) ∧ win0_1.index t (1 : Fin 5) = win0_2.index t (1 : Fin 5)
    ∧ win0_1.index t (2 : Fin 5) = 0 ∧ win0_1.index t (3 : Fin 5) = 0 ∧ win0_1.index t (4 : Fin 5) = 0
    ∧ win0_2.index t (0 : Fin 5) < 2 ∧ win0_2.index t (1 : Fin 5) < 8
    ∧ win0_2.index t (2 : Fin 5) = 0 ∧ win0_2.index t (3 : Fin 5) = 0 ∧ win0_2.index t (4 : Fin 5) = 0 :=
  (by decide +kernel : ∀ t : Fin grid0.N, _)

/-- Every (b, g) is some point's block. -/
theorem idx_onto : ∀ (q0 : Fin 2) (q1 : Fin 8), ∃ t : Fin cfg0.N, win0_2.index t = ![q0.val, q1.val, 0, 0, 0] :=
  (by decide +kernel : ∀ (q0 : Fin 2) (q1 : Fin 8), ∃ t : Fin grid0.N, win0_2.index t = ![q0.val, q1.val, 0, 0, 0])

/-- Point t's x block at (c, h, j) is the regrouped x at (b, g, c, h, j). -/
theorem iblk0_apply (c : Dev nD) (t : Fin cfg0.N) (b : Fin 2) (g : Fin 8) (hb : win0_2.index t (0 : Fin 5) = b.val)
    (hg : win0_2.index t (1 : Fin 5) = g.val) (cc : Fin 8) (h : Fin 96) (j : Fin 320) :
    iblk m c 0 t (ix5 (0 : Fin 1) (0 : Fin 1) cc h j) = gx m c (ix5 b g cc h j) := by
  obtain ⟨e0, e1, e2, e3, e4, -⟩ := idx_facts t
  show V m c main_v0 (((cfg0.win 0).blk t).view.emb (ix5 (0 : Fin 1) (0 : Fin 1) cc h j)) = V m c main_v0 (ix5 b g cc h j)
  refine congrArg _ (funext fun a => Fin.ext ?_)
  match a with
  | ⟨0, _⟩ => show win0_0.index t (0 : Fin 5) * 1 + 1 * 0 = b.val; omega
  | ⟨1, _⟩ => show win0_0.index t (1 : Fin 5) * 1 + 1 * 0 = g.val; omega
  | ⟨2, _⟩ => show win0_0.index t (2 : Fin 5) * 8 + 1 * cc.val = cc.val; omega
  | ⟨3, _⟩ => show win0_0.index t (3 : Fin 5) * 96 + 1 * h.val = h.val; omega
  | ⟨4, _⟩ => show win0_0.index t (4 : Fin 5) * 320 + 1 * j.val = j.val; omega

/-- Point t's y block likewise. -/
theorem iblk1_apply (c : Dev nD) (t : Fin cfg0.N) (b : Fin 2) (g : Fin 8) (hb : win0_2.index t (0 : Fin 5) = b.val)
    (hg : win0_2.index t (1 : Fin 5) = g.val) (cc : Fin 8) (h : Fin 96) (j : Fin 320) :
    iblk m c 1 t (ix5 (0 : Fin 1) (0 : Fin 1) cc h j) = gy m c (ix5 b g cc h j) := by
  obtain ⟨-, -, -, -, -, e0, e1, e2, e3, e4, -⟩ := idx_facts t
  show V m c main_v1 (((cfg0.win 1).blk t).view.emb (ix5 (0 : Fin 1) (0 : Fin 1) cc h j)) = V m c main_v1 (ix5 b g cc h j)
  refine congrArg _ (funext fun a => Fin.ext ?_)
  match a with
  | ⟨0, _⟩ => show win0_1.index t (0 : Fin 5) * 1 + 1 * 0 = b.val; omega
  | ⟨1, _⟩ => show win0_1.index t (1 : Fin 5) * 1 + 1 * 0 = g.val; omega
  | ⟨2, _⟩ => show win0_1.index t (2 : Fin 5) * 8 + 1 * cc.val = cc.val; omega
  | ⟨3, _⟩ => show win0_1.index t (3 : Fin 5) * 96 + 1 * h.val = h.val; omega
  | ⟨4, _⟩ => show win0_1.index t (4 : Fin 5) * 320 + 1 * j.val = j.val; omega

/-- WHAT POINT t WRITES BACK is block t of the cost volume of the regrouped inputs. -/
theorem flushed_eq (c : Dev nD) (t : Fin cfg0.N) :
    (dats m 0 c).flushed 2 t = ((cfg0.win 2).blk t).view.read (Elt Ideal) (cost (gx m c) (gy m c)) := by
  rw [flushed2_A, out_eq]
  obtain ⟨-, -, -, -, -, -, -, -, -, -, hb, hg, f2, f3, f4⟩ := idx_facts t
  funext y
  have h0 : (y 0).val < 1 := (y 0).isLt
  have h1 : (y 1).val < 1 := (y 1).isLt
  have h2 : (y 2).val < 49 := (y 2).isLt
  have h3 : (y 3).val < 96 := (y 3).isLt
  have h4 : (y 4).val < 320 := (y 4).isLt
  show blkOut (iblk m c 0 t) (iblk m c 1 t) y = cost (gx m c) (gy m c) (((cfg0.win 2).blk t).view.emb y)
  have hi : ((cfg0.win 2).blk t).view.emb y
      = ix5 (⟨win0_2.index t (0 : Fin 5), hb⟩ : Fin 2) (⟨win0_2.index t (1 : Fin 5), hg⟩ : Fin 8) (⟨(y 2).val, h2⟩ : Fin 49)
          (⟨(y 3).val, h3⟩ : Fin 96) (⟨(y 4).val, h4⟩ : Fin 320) :=
    funext fun a => Fin.ext (by
      match a with
      | ⟨0, _⟩ => show win0_2.index t (0 : Fin 5) * 1 + 1 * (y 0).val = win0_2.index t (0 : Fin 5); omega
      | ⟨1, _⟩ => show win0_2.index t (1 : Fin 5) * 1 + 1 * (y 1).val = win0_2.index t (1 : Fin 5); omega
      | ⟨2, _⟩ => show win0_2.index t (2 : Fin 5) * 49 + 1 * (y 2).val = (y 2).val; omega
      | ⟨3, _⟩ => show win0_2.index t (3 : Fin 5) * 96 + 1 * (y 3).val = (y 3).val; omega
      | ⟨4, _⟩ => show win0_2.index t (4 : Fin 5) * 320 + 1 * (y 4).val = (y 4).val; omega)
  rw [hi, cost_apply]
  unfold blkOut
  rw [blkRow_apply]
  have hx : bchan (iblk m c 0 t) (⟨(y 3).val, h3⟩ : Fin 96) (⟨(y 4).val, h4⟩ : Fin 320)
      = chan (gx m c) (⟨win0_2.index t (0 : Fin 5), hb⟩ : Fin 2) (⟨win0_2.index t (1 : Fin 5), hg⟩ : Fin 8) ⟨(y 3).val, h3⟩ ⟨(y 4).val, h4⟩ :=
    funext fun cc => iblk0_apply m c t _ _ rfl rfl cc _ _
  have hy : bshift (iblk m c 1 t) (⟨(y 3).val, h3⟩ : Fin 96) (y 2).val (⟨(y 4).val, h4⟩ : Fin 320)
      = shifted (gy m c) (⟨win0_2.index t (0 : Fin 5), hb⟩ : Fin 2) (⟨win0_2.index t (1 : Fin 5), hg⟩ : Fin 8) ⟨(y 3).val, h3⟩
          (⟨(y 2).val, h2⟩ : Fin 49) ⟨(y 4).val, h4⟩ := by
    funext cc
    unfold bshift shifted
    by_cases hd : (y 2).val ≤ (y 4).val
    · rw [dif_pos hd, dif_pos hd]
      exact congrArg (fun v => unitOf v cc) (funext fun k => iblk1_apply m c t _ _ rfl rfl k _ _)
    · rw [dif_neg hd, dif_neg hd]
  exact congrArg₂ l1 hx hy

/-- An index is in point t's result block iff each coordinate is in the block's range. -/
theorem mem_blk (t : Fin cfg0.N) (i : S2x8x49x96x320.Idx) :
    i ∈ ((cfg0.win 2).blk t).view.set ↔ ∀ a : Fin 5, win0_2.index t a * S1x1x49x96x320.size a ≤ (i a).val
      ∧ (i a).val < win0_2.index t a * S1x1x49x96x320.size a + S1x1x49x96x320.size a := by
  show i ∈ ((View.whole main_v2).slice (win0_2.rect t)).set ↔ _
  rw [View.set_slice_whole, Rect.mem_set_unit]
  exact Iff.rfl

/-- The result blocks tile the result: index (b, g, d, h, j) is in the block of the point at (b, g). -/
theorem covered (i : S2x8x49x96x320.Idx) :
    ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 49 := (i 2).isLt
  have hi3 : (i 3).val < 96 := (i 3).isLt
  have hi4 : (i 4).val < 320 := (i 4).isLt
  obtain ⟨t, ht⟩ := idx_onto ⟨(i 0).val, hi0⟩ ⟨(i 1).val, hi1⟩
  have q0 : win0_2.index t (0 : Fin 5) = (i 0).val := congrFun ht 0
  have q1 : win0_2.index t (1 : Fin 5) = (i 1).val := congrFun ht 1
  have q2 : win0_2.index t (2 : Fin 5) = 0 := congrFun ht 2
  have q3 : win0_2.index t (3 : Fin 5) = 0 := congrFun ht 3
  have q4 : win0_2.index t (4 : Fin 5) = 0 := congrFun ht 4
  refine ⟨t, flush0_2 t, ?_⟩
  rw [mem_blk]
  intro a
  match a with
  | ⟨0, _⟩ => show win0_2.index t (0 : Fin 5) * 1 ≤ (i 0).val ∧ (i 0).val < win0_2.index t (0 : Fin 5) * 1 + 1; omega
  | ⟨1, _⟩ => show win0_2.index t (1 : Fin 5) * 1 ≤ (i 1).val ∧ (i 1).val < win0_2.index t (1 : Fin 5) * 1 + 1; omega
  | ⟨2, _⟩ => show win0_2.index t (2 : Fin 5) * 49 ≤ (i 2).val ∧ (i 2).val < win0_2.index t (2 : Fin 5) * 49 + 49; omega
  | ⟨3, _⟩ => show win0_2.index t (3 : Fin 5) * 96 ≤ (i 3).val ∧ (i 3).val < win0_2.index t (3 : Fin 5) * 96 + 96; omega
  | ⟨4, _⟩ => show win0_2.index t (4 : Fin 5) * 320 ≤ (i 4).val ∧ (i 4).val < win0_2.index t (4 : Fin 5) * 320 + 320; omega

/-- THE RESULT ARRAY after the run: the cost volume of the regrouped inputs. -/
theorem final (c : Dev nD) : (dats m 0 c).arrAt 2 cfg0.N = cost (gx m c) (gy m c) :=
  (dats m 0 c).arrAt_eq_of_cover 2 (cost (gx m c) (gy m c)) (fun t _ => flushed_eq m c t) covered

/-- The regrouped inputs are the host's reshapes of the two arguments. -/
theorem gx_eq (c : Dev nD) :
    gx m c = shapeCast S2x8x8x96x320 (m ((c : Thread nD τ).loc main_arg0)) shapeCasts_S2x64x96x320_S2x8x8x96x320 := by
  dsimp only [gx, Gen.V, Gen.hostOps0]
  after_results
  rfl
theorem gy_eq (c : Dev nD) :
    gy m c = shapeCast S2x8x8x96x320 (m ((c : Thread nD τ).loc main_arg1)) shapeCasts_S2x64x96x320_S2x8x8x96x320 := by
  dsimp only [gy, Gen.V, Gen.hostOps0]
  after_results
  rfl

/-- THE KERNEL'S RUN: it ends with the result at the cost volume of the reshaped arguments, the arguments unchanged. -/
theorem run : θ_run defs (onTc (τ := τ) (main (F := Ideal))) ⟨m, fun _ => 0, ρ⟩ fun r => ∀ c : Dev nD,
      r.2.mem ((c : Thread nD τ).loc main_v2)
        = cost (shapeCast S2x8x8x96x320 (m ((c : Thread nD τ).loc main_arg0)) shapeCasts_S2x64x96x320_S2x8x8x96x320)
            (shapeCast S2x8x8x96x320 (m ((c : Thread nD τ).loc main_arg1)) shapeCasts_S2x64x96x320_S2x8x8x96x320)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [gx_eq, gy_eq])), (h c).2⟩)
    (run_blocks m ρ)

end Cert.CostVolume.KernelArray

end
-- ==== Proof.RefValue.lean ====
/-
  The reference program computes the cost volume (Spec.lean's `cost`) of its two arguments regrouped as 8 groups of 8
  channels. Stage by stage: each input divided by its channel vector's Euclidean length plus ε is `unitOf` of its
  channel vector; the table of start indices holds the word j + 48 − d at (d, j); the second input padded with 48 zero
  columns on the left, read at column j + 48 − d, is its entry at column j − d when d ≤ j and zero otherwise; the
  absolute differences summed over the 8 channels, with the axes (d, h) exchanged, are the cost volume's entries.
-/
import proofs.«404071_j7241314861165_3_alg».proof.Proof.Gen.ReferenceIdeal.Read
import proofs.«404071_j7241314861165_3_alg».proof.Proof.Spec
import Idealize.ShloMosaic.Lib.KernelVsHost
import Idealize.ShloMosaic.Lib.ValueIdx
import Idealize.ShloMosaic.Lib.ValueIdxRank6
import Idealize.ShloMosaic.Lib.StableHlo.Predicate
import Idealize.ShloMosaic.PureOps.Ideal.Laws

noncomputable section

namespace Cert.CostVolume

open Idealize.ShloMosaic

namespace Ref

open Idealize.ShloMosaic.ValueIdx
open Cert.ReferenceIdeal Cert.ReferenceIdeal.Gen Cert.ReferenceIdeal.Read

/-- The first input normalised, at pixel (b, g, ·, h, j) and channel c: the unit vector of its 8 channels there. -/
theorem xn_apply (x0 : (⟨S2x64x96x320, .f32⟩ : BufTy).Contents (Elt Ideal)) (b : Fin 2) (g : Fin 8) (c : Fin 8) (h : Fin 96)
    (j : Fin 320) :
    val_main_v6 (F := Ideal) x0 (ix5 b g c h j) = unitOf (chan (val_main_v0 (F := Ideal) x0) b g h j) c := by
  have hidx : ∀ k : Fin 8, idx_main_call0_v1 (idx_main_call0_v2 (idx_main_v5 (ix5 b g c h j))) k = ix5 b g k h j := fun k =>
    funext fun a => Fin.ext (by match a with | ⟨0, _⟩ => rfl | ⟨1, _⟩ => rfl | ⟨2, _⟩ => rfl | ⟨3, _⟩ => rfl | ⟨4, _⟩ => rfl)
  rw [val_main_v6_apply, val_main_v5_apply, val_main_v4_apply, val_main_v2_apply, val_main_call0_v2_apply,
    val_main_call0_v1_apply, val_main_v3_apply, val_main_cst_apply, val_main_call0_cst_apply]
  simp only [val_main_call0_v0_apply, hidx, Ideal.hostDivf_def, Ideal.hostUnary_sqrt_def, Ideal.addf_def, Ideal.mulf_def,
    Ideal.ofBits_def, Ideal.ofBits_zero_f32, zero_add]
  rfl

/-- The second input normalised, likewise. -/
theorem yn_apply (x1 : (⟨S2x64x96x320, .f32⟩ : BufTy).Contents (Elt Ideal)) (b : Fin 2) (g : Fin 8) (c : Fin 8) (h : Fin 96)
    (j : Fin 320) :
    val_main_v11 (F := Ideal) x1 (ix5 b g c h j) = unitOf (chan (val_main_v1 (F := Ideal) x1) b g h j) c := by
  have hidx : ∀ k : Fin 8, idx_main_call1_v1 (idx_main_call1_v2 (idx_main_v10 (ix5 b g c h j))) k = ix5 b g k h j := fun k =>
    funext fun a => Fin.ext (by match a with | ⟨0, _⟩ => rfl | ⟨1, _⟩ => rfl | ⟨2, _⟩ => rfl | ⟨3, _⟩ => rfl | ⟨4, _⟩ => rfl)
  rw [val_main_v11_apply, val_main_v10_apply, val_main_v9_apply, val_main_v7_apply, val_main_call1_v2_apply,
    val_main_call1_v1_apply, val_main_v8_apply, val_main_cst_0_apply, val_main_call1_cst_apply]
  simp only [val_main_call1_v0_apply, hidx, Ideal.hostDivf_def, Ideal.hostUnary_sqrt_def, Ideal.addf_def, Ideal.mulf_def,
    Ideal.ofBits_def, Ideal.ofBits_zero_f32, zero_add]
  rfl

/-- The start-index word at (d, j): j + 48 − d. -/
theorem idx_apply (d : Fin 49) (j : Fin 320) :
    val_main_v27 (F := Ideal) (ix3 d j (0 : Fin 1)) = BitVec.ofNat 32 (j.val + 48 - d.val) := by
  have hd : d.val < 49 := d.isLt
  have hj : j.val < 320 := j.isLt
  have hw : IntOp.subi (IntOp.addi (BitVec.ofNat 32 j.val) 48#32) (BitVec.ofNat 32 d.val)
      = BitVec.ofNat 32 (j.val + 48 - d.val) := by
    apply BitVec.eq_of_toNat_eq
    simp only [IntOp.subi, IntOp.addi, BitVec.toNat_sub, BitVec.toNat_add, BitVec.toNat_ofNat]
    omega
  rw [val_main_v27_apply, val_main_v26_apply, val_main_v23_apply, val_main_v25_apply, val_main_v21_apply,
    val_main_v19_apply, val_main_v20_apply, val_main_v16_apply, val_main_v18_apply, val_main_v14_apply, val_main_v15_apply,
    val_main_v17_apply, val_main_v13_apply, val_main_c_1_apply, val_main_v22_apply, val_main_c_2_apply]
  show Scalar.select (IntOp.cmpi .slt (IntOp.subi (IntOp.addi (BitVec.ofNat 32 j.val) 48#32) (BitVec.ofNat 32 d.val)) 0#32) _
    (IntOp.subi (IntOp.addi (BitVec.ofNat 32 j.val) 48#32) (BitVec.ofNat 32 d.val)) = _
  rw [hw]
  have hn : ¬ IntOp.cmpi .slt (BitVec.ofNat 32 (j.val + 48 - d.val)) 0#32 = 1#1 := by
    rw [StableHlo.Predicate.slt_iff_toNat (by simp only [BitVec.toNat_ofNat]; omega) (by decide)]
    simp
  rw [eq_zero_of_ne_one hn, select_zero]

/-- The padded second input at a column k ≥ 48 is the normalised input at column k − 48 … -/
theorem ypad_inside (x1 : (⟨S2x64x96x320, .f32⟩ : BufTy).Contents (Elt Ideal)) (b : Fin 2) (g : Fin 8) (c : Fin 8) (h : Fin 96)
    (k : Fin 368) (k' : Fin 320) (hk : k.val = 48 + k'.val) :
    val_main_v12 (F := Ideal) x1 (ix5 b g c h k) = val_main_v11 (F := Ideal) x1 (ix5 b g c h k') := by
  unfold val_main_v12
  refine pad_apply_of_inside _ _ _ _ _ pads_S2x8x8x96x320_S2x8x8x96x368_000_000_000_000_4800 h_S_ _ (ix5 b g c h k') (fun a => ?_)
  match a with
  | ⟨0, _⟩ => show b.val = 0 + b.val * (0 + 1); omega
  | ⟨1, _⟩ => show g.val = 0 + g.val * (0 + 1); omega
  | ⟨2, _⟩ => show c.val = 0 + c.val * (0 + 1); omega
  | ⟨3, _⟩ => show h.val = 0 + h.val * (0 + 1); omega
  | ⟨4, _⟩ => show k.val = 48 + k'.val * (0 + 1); omega

/-- … and zero in the 48 columns of padding (the padding value is the integer zero converted). -/
theorem ypad_outside (x1 : (⟨S2x64x96x320, .f32⟩ : BufTy).Contents (Elt Ideal)) (b : Fin 2) (g : Fin 8) (c : Fin 8) (h : Fin 96)
    (k : Fin 368) (hk : k.val < 48) :
    val_main_v12 (F := Ideal) x1 (ix5 b g c h k) = 0 := by
  unfold val_main_v12
  refine (pad_apply_of_not_inside _ _ _ _ _ pads_S2x8x8x96x320_S2x8x8x96x368_000_000_000_000_4800 h_S_ (ix5 b g c h k) (4 : Fin 5)
    (fun hin => absurd (show 48 ≤ k.val from hin.1) (by omega))).trans ?_
  rw [val_main_call2_v0_apply, val_main_c_apply]
  exact sitofp_zero (φ := .f32)

local notation "G" => gather_S2x8x8x96x368_S49x320x1_S2x8x8x96x49x320_0123_4_n_n_4_2_288961

/-! The operand index the gather reads at result index (b, g, c, h, d, j), axis by axis: the result's own coordinate on
    the four offset axes, the clamped start index on the last. -/

theorem opIdx_0 (idx : IVec S49x320x1 32) (b : Fin 2) (g : Fin 8) (c : Fin 8) (h : Fin 96) (d : Fin 49) (j : Fin 320) :
    (GatherDims.operandIdx G (ix6 b g c h d j) idx (0 : Fin 5)).val = b.val := by
  show GatherDims.start G (ix6 b g c h d j) idx 0 + GatherDims.batchCoord G (ix6 b g c h d j) 0 + GatherDims.offCoord G (ix6 b g c h d j) 0 = _
  rw [GatherDims.batchCoord_eq_zero _ _ _ List.not_mem_nil, Nat.add_zero]
  unfold GatherDims.start
  rw [dif_neg (by decide), Nat.zero_add]
  unfold GatherDims.offCoord
  rw [dif_pos (by decide)]
  rfl

theorem opIdx_1 (idx : IVec S49x320x1 32) (b : Fin 2) (g : Fin 8) (c : Fin 8) (h : Fin 96) (d : Fin 49) (j : Fin 320) :
    (GatherDims.operandIdx G (ix6 b g c h d j) idx (1 : Fin 5)).val = g.val := by
  show GatherDims.start G (ix6 b g c h d j) idx 1 + GatherDims.batchCoord G (ix6 b g c h d j) 1 + GatherDims.offCoord G (ix6 b g c h d j) 1 = _
  rw [GatherDims.batchCoord_eq_zero _ _ _ List.not_mem_nil, Nat.add_zero]
  unfold GatherDims.start
  rw [dif_neg (by decide), Nat.zero_add]
  unfold GatherDims.offCoord
  rw [dif_pos (by decide)]
  rfl

theorem opIdx_2 (idx : IVec S49x320x1 32) (b : Fin 2) (g : Fin 8) (c : Fin 8) (h : Fin 96) (d : Fin 49) (j : Fin 320) :
    (GatherDims.operandIdx G (ix6 b g c h d j) idx (2 : Fin 5)).val = c.val := by
  show GatherDims.start G (ix6 b g c h d j) idx 2 + GatherDims.batchCoord G (ix6 b g c h d j) 2 + GatherDims.offCoord G (ix6 b g c h d j) 2 = _
  rw [GatherDims.batchCoord_eq_zero _ _ _ List.not_mem_nil, Nat.add_zero]
  unfold GatherDims.start
  rw [dif_neg (by decide), Nat.zero_add]
  unfold GatherDims.offCoord
  rw [dif_pos (by decide)]
  rfl

theorem opIdx_3 (idx : IVec S49x320x1 32) (b : Fin 2) (g : Fin 8) (c : Fin 8) (h : Fin 96) (d : Fin 49) (j : Fin 320) :
    (GatherDims.operandIdx G (ix6 b g c h d j) idx (3 : Fin 5)).val = h.val := by
  show GatherDims.start G (ix6 b g c h d j) idx 3 + GatherDims.batchCoord G (ix6 b g c h d j) 3 + GatherDims.offCoord G (ix6 b g c h d j) 3 = _
  rw [GatherDims.batchCoord_eq_zero _ _ _ List.not_mem_nil, Nat.add_zero]
  unfold GatherDims.start
  rw [dif_neg (by decide), Nat.zero_add]
  unfold GatherDims.offCoord
  rw [dif_pos (by decide)]
  rfl

theorem opIdx_4 (idx : IVec S49x320x1 32) (b : Fin 2) (g : Fin 8) (c : Fin 8) (h : Fin 96) (d : Fin 49) (j : Fin 320) :
    (GatherDims.operandIdx G (ix6 b g c h d j) idx (4 : Fin 5)).val = min (idx (ix3 d j (0 : Fin 1))).toInt.toNat 367 := by
  show GatherDims.start G (ix6 b g c h d j) idx 4 + GatherDims.batchCoord G (ix6 b g c h d j) 4 + GatherDims.offCoord G (ix6 b g c h d j) 4 = _
  rw [GatherDims.batchCoord_eq_zero _ _ _ List.not_mem_nil, Nat.add_zero,
    GatherDims.offCoord_eq_zero _ _ _ (fun hm => ((GatherDims.mem_sKept _ _).mp hm).1 (List.mem_singleton.mpr rfl)), Nat.add_zero]
  unfold GatherDims.start
  rw [dif_pos (show (4 : Fin 5) ∈ GatherDims.startIndexMap G from List.mem_singleton.mpr rfl)]
  have hsi : GatherDims.siIdx G (ix6 b g c h d j) ⟨List.idxOf (4 : Fin 5) (GatherDims.startIndexMap G),
      List.idxOf_lt_length_iff.2 (List.mem_singleton.mpr rfl)⟩ = ix3 d j (0 : Fin 1) := by
    funext e; refine Fin.ext ?_
    match e with
    | ⟨0, _⟩ => rfl
    | ⟨1, _⟩ => rfl
    | ⟨2, _⟩ => rfl
  rw [hsi]
  rfl

/-- The gathered entry at (b, g, c, h, d, j): the padded input at the column the start-index word at (d, j) names, read
    signed and clamped into [0, 367]. -/
theorem gathered_apply (x1 : (⟨S2x64x96x320, .f32⟩ : BufTy).Contents (Elt Ideal)) (b : Fin 2) (g : Fin 8) (c : Fin 8) (h : Fin 96)
    (d : Fin 49) (j : Fin 320) (k : Fin 368)
    (hk : k.val = min (val_main_v27 (F := Ideal) (ix3 d j (0 : Fin 1))).toInt.toNat 367) :
    val_main_v28 (F := Ideal) x1 (ix6 b g c h d j) = val_main_v12 (F := Ideal) x1 (ix5 b g c h k) := by
  unfold val_main_v28 Host.gather
  congr 1
  funext a
  refine Fin.ext ?_
  match a with
  | ⟨0, _⟩ => exact opIdx_0 _ b g c h d j
  | ⟨1, _⟩ => exact opIdx_1 _ b g c h d j
  | ⟨2, _⟩ => exact opIdx_2 _ b g c h d j
  | ⟨3, _⟩ => exact opIdx_3 _ b g c h d j
  | ⟨4, _⟩ => exact (opIdx_4 _ b g c h d j).trans hk.symm

/-- The gathered entry is the second input's unit vector d columns to the left, zero off the left edge: the start-index
    word j + 48 − d is non-negative and at most 367, so it is read as it stands, and it is at least 48 exactly when d ≤ j. -/
theorem gathered_eq (x1 : (⟨S2x64x96x320, .f32⟩ : BufTy).Contents (Elt Ideal)) (b : Fin 2) (g : Fin 8) (c : Fin 8) (h : Fin 96)
    (d : Fin 49) (j : Fin 320) :
    val_main_v28 (F := Ideal) x1 (ix6 b g c h d j) = shifted (val_main_v1 (F := Ideal) x1) b g h d j c := by
  have hd : d.val < 49 := d.isLt
  have hj : j.val < 320 := j.isLt
  have hk : (⟨j.val + 48 - d.val, by omega⟩ : Fin 368).val
      = min (val_main_v27 (F := Ideal) (ix3 d j (0 : Fin 1))).toInt.toNat 367 := by
    rw [idx_apply, StableHlo.Predicate.toInt_ofNat_small _ (by omega), Int.toNat_natCast]
    show j.val + 48 - d.val = min (j.val + 48 - d.val) 367
    omega
  rw [gathered_apply x1 b g c h d j _ hk]
  unfold shifted
  by_cases hdj : d.val ≤ j.val
  · rw [dif_pos hdj]
    exact (ypad_inside x1 b g c h _ (⟨j.val - d.val, by omega⟩ : Fin 320) (by show j.val + 48 - d.val = 48 + (j.val - d.val); omega)).trans
      (yn_apply x1 b g c h _)
  · rw [dif_neg hdj]
    exact ypad_outside x1 b g c h _ (by show j.val + 48 - d.val < 48; omega)

/-- The reference's result is the cost volume of the two regrouped inputs. -/
theorem ref_eq' (x0 x1 : (⟨S2x64x96x320, .f32⟩ : BufTy).Contents (Elt Ideal)) :
    val_main_v34 (F := Ideal) x0 x1 = cost (val_main_v0 (F := Ideal) x0) (val_main_v1 (F := Ideal) x1) := by
  funext i
  obtain ⟨b, g, d, h, j, rfl⟩ : ∃ (b : Fin 2) (g : Fin 8) (d : Fin 49) (h : Fin 96) (j : Fin 320), i = ix5 b g d h j :=
    ⟨i 0, i 1, i 2, i 3, i 4, eq_ix5 i⟩
  have h33 : ∀ k : Fin 8, idx_main_v33 (idx_main_v34 (ix5 b g d h j)) k = ix6 b g k h d j := fun k =>
    funext fun a => Fin.ext (by
      match a with | ⟨0, _⟩ => rfl | ⟨1, _⟩ => rfl | ⟨2, _⟩ => rfl | ⟨3, _⟩ => rfl | ⟨4, _⟩ => rfl | ⟨5, _⟩ => rfl)
  have h30 : ∀ k : Fin 8, idx_main_v29 (idx_main_v30 (ix6 b g k h d j)) = ix5 b g k h j := fun k =>
    funext fun a => Fin.ext (by match a with | ⟨0, _⟩ => rfl | ⟨1, _⟩ => rfl | ⟨2, _⟩ => rfl | ⟨3, _⟩ => rfl | ⟨4, _⟩ => rfl)
  rw [val_main_v34_apply, val_main_v33_apply, val_main_cst_4_apply, cost_apply]
  simp only [h33, val_main_v32_apply, val_main_v31_apply, val_main_v30_apply, val_main_v29_apply, h30, xn_apply, gathered_eq,
    Ideal.hostAbsf_def, Ideal.absf_def, Ideal.subf_def, Ideal.ofBits_def, Ideal.ofBits_zero_f32, zero_add]
  rfl

end Ref

/-- THE REFERENCE SIDE: the value the reference program writes is the cost volume of its two arguments regrouped as 8
    groups of 8 channels. -/
theorem ref_eq (x0 x1 : (⟨Cert.ReferenceIdeal.S2x64x96x320, .f32⟩ : BufTy).Contents (Elt Ideal)) :
    Cert.ReferenceIdeal.Read.val_main_v34 (F := Ideal) x0 x1
      = Cert.CostVolume.cost
          (shapeCast Cert.ReferenceIdeal.S2x8x8x96x320 x0 Cert.ReferenceIdeal.Gen.shapeCasts_S2x64x96x320_S2x8x8x96x320)
          (shapeCast Cert.ReferenceIdeal.S2x8x8x96x320 x1 Cert.ReferenceIdeal.Gen.shapeCasts_S2x64x96x320_S2x8x8x96x320) :=
  Ref.ref_eq' x0 x1

end Cert.CostVolume

end
-- ==== Proof.lean ====
/-
  The proof of `Cert.Claim`: a grouped L1 cost volume computed by a kernel that loops over the 49 shifts inside each
  grid point, against the reference that gathers shifted columns from a left-padded array.

  Both programs regroup the 64 channels of x and y as 8 groups of 8 and divide every pixel's 8-channel vector by its
  Euclidean length plus the same ε. The result at (b, g, d, h, j) is the sum over the 8 channels of
  |xn(b, g, c, h, j) − yn(b, g, c, h, j − d)|, with yn replaced by 0 where j < d (`Cert.CostVolume.cost`, Proof/Spec.lean).
  The kernel gets the shifted column by rotating a 384-column buffer — the 320 columns of yn followed by 64 zero
  columns — by d: the columns that come around the end are zero columns because d ≤ 48 < 64. The reference pads yn with
  48 zero columns on the left and gathers column j + 48 − d. Each side is read entry by entry to the same function of
  the regrouped inputs (Proof/KernelArray.lean over Proof/Body.lean and Proof/BodyValue.lean; Proof/RefValue.lean); no
  law of arithmetic beyond 0 + a = a joins them, so the finiteness of the inputs is never used.
-/
import proofs.«404071_j7241314861165_3_alg».proof.Defs
import proofs.«404071_j7241314861165_3_alg».proof.Proof.Gen.Kernel
import proofs.«404071_j7241314861165_3_alg».proof.Proof.Gen.Kernel.Skeleton
import proofs.«404071_j7241314861165_3_alg».proof.Proof.Gen.Kernel.Loops
import proofs.«404071_j7241314861165_3_alg».proof.Proof.Gen.Kernel.Launch
import proofs.«404071_j7241314861165_3_alg».proof.Proof.Gen.Kernel.Points
import proofs.«404071_j7241314861165_3_alg».proof.Proof.Gen.Kernel.Frame
import proofs.«404071_j7241314861165_3_alg».proof.Proof.Gen.KernelIdeal
import proofs.«404071_j7241314861165_3_alg».proof.Proof.Gen.KernelIdeal.Skeleton
import proofs.«404071_j7241314861165_3_alg».proof.Proof.Gen.KernelIdeal.Loops
import proofs.«404071_j7241314861165_3_alg».proof.Proof.Gen.KernelIdeal.Launch
import proofs.«404071_j7241314861165_3_alg».proof.Proof.Gen.KernelIdeal.Points
import proofs.«404071_j7241314861165_3_alg».proof.Proof.Gen.KernelIdeal.Frame
import proofs.«404071_j7241314861165_3_alg».proof.Proof.Gen.ReferenceIdeal
import proofs.«404071_j7241314861165_3_alg».proof.Proof.Gen.Pre_finite_inputs
import proofs.«404071_j7241314861165_3_alg».proof.Proof.Gen.KernelIdeal.Value
import proofs.«404071_j7241314861165_3_alg».proof.Proof.Gen.ReferenceIdeal.Run
import proofs.«404071_j7241314861165_3_alg».proof.Proof.Gen.ReferenceIdeal.Read
import proofs.«404071_j7241314861165_3_alg».proof.Proof.KernelArray
import proofs.«404071_j7241314861165_3_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with the cost volume of the regrouped arguments. -/
theorem algebraic : Cert.algebraic_KernelIdeal_ReferenceIdeal := by
  intro m ρ m' ρ' _ hagree
  refine ⟨_, Cert.CostVolume.KernelArray.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v34_eq _ _).trans ((Cert.CostVolume.ref_eq _ _).trans ?_)
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
